-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 84
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x64, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x64, .f32⟩
  | .hbm, ⟨74, _⟩ => ⟨S1700000x1, .f32⟩
  | .hbm, ⟨75, _⟩ => ⟨S1700000x64, .f32⟩
  | .hbm, ⟨76, _⟩ => ⟨S1700000x64, .f32⟩
  | .hbm, ⟨77, _⟩ => ⟨S_, .f32⟩
  | .hbm, ⟨78, _⟩ => ⟨S100000x64, .f32⟩
  | .hbm, ⟨79, _⟩ => ⟨S1700000x1, .i32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x64, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x64, .f32⟩
  | .hbm, ⟨79, _⟩ => ⟨S1700000x1, .f32⟩
  | .hbm, ⟨80, _⟩ => ⟨S1700000x64, .f32⟩
  | .hbm, ⟨81, _⟩ => ⟨S1700000x64, .f32⟩
  | .hbm, ⟨82, _⟩ => ⟨S_, .f32⟩
  | .hbm, ⟨83, _⟩ => ⟨S100000x64, .f32⟩
  | .hbm, ⟨84, _⟩ => ⟨S1700000x1, .i32⟩
  | .hbm, ⟨85, _⟩ => ⟨S100000x64, .f32⟩
  | .hbm, ⟨86, _⟩ => ⟨S1x64, .f32⟩
  | .hbm, ⟨87, _⟩ => ⟨S100000x64, .f32⟩
  | .hbm, ⟨88, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.TileProduct.lean ====
/-
  A row tile of a matrix product over the extended reals.

  Both kernel bodies end in a matrix product of a tile of rows, its operands narrowed to bf16 first, accumulated into
  zero. Over the extended reals a change of float format is the identity and adding to zero changes nothing, so entry
  (p, q) of the tile's product is the plain sum over k of lhs (p, k) · rhs (k, q). The second body first adds a bias
  row to the tile and clamps it below at the zero word: its entry (p, q) is the sum over k of
  max (a (p, k) + b (0, k)) 0 · w (k, q). Generic in the three extents.
-/
import Idealize.ShloMosaic.PureOps.Ideal.Laws
import Idealize.ShloMosaic.Lib.ValueIdx
import Idealize.ShloMosaic.Lib.Pipeline.Value
import proofs.«126755_j32796370272476_1_alg».proof.Proof.LibPlainDot

noncomputable section

namespace Cert.Tile

open Idealize.ShloMosaic Idealize.ShloMosaic.ValueIdx

variable (M K N : Nat)

/-- The narrowed product of a tile into zero, at entry (p, q): the narrowing is the identity on extended reals. -/
theorem narrowed_product_apply (x : FVec Ideal ⟨2, ![M, K]⟩ .f32) (w : FVec Ideal ⟨2, ![K, N]⟩ .f32)
    (h : FTy.bf16.bits < FTy.f32.bits) (p : Fin M) (q : Fin N) :
    matmul (F := Ideal) (DotDims.plain M K N) none (truncf .bf16 x h) (truncf .bf16 w h)
        (constant (F := Ideal) ⟨2, ![M, N]⟩ .f32 0x00000000#32) (ix2 p q)
      = ∑ k : Fin K, x (ix2 p k) * w (ix2 k q) := by
  simp only [matmul]
  rw [Cert.Lib.PlainDot.matmul_zero_apply]
  rfl

/-- A one-row matrix broadcast down the rows of a tile reads its row 0. -/
theorem rowBroadcast_apply (b : FVec Ideal ⟨2, ![1, K]⟩ .f32)
    (hb : (⟨2, ![1, K]⟩ : Shape).Broadcasts ⟨2, ![M, K]⟩) (p : Fin M) (k : Fin K) :
    broadcastTo (⟨2, ![M, K]⟩ : Shape) b hb (ix2 p k) = b (ix2 0 k) := by
  refine broadcastTo_apply b hb (ix2 p k) (ix2 0 k) ?_
  intro a
  match a with
  | ⟨0, _⟩ => show (0 : Nat) = if (1 : Nat) = 1 then 0 else _; rw [if_pos rfl]
  | ⟨1, _⟩ =>
    show k.val = if K = 1 then 0 else k.val
    split
    · have := k.isLt; omega
    · rfl

/-- The second body's product: the tile plus the bias row, clamped below at `z`, narrowed, times the narrowed
    weights into zero, at entry (p, q). -/
theorem bias_relu_product_apply (a : FVec Ideal ⟨2, ![M, K]⟩ .f32) (b : FVec Ideal ⟨2, ![1, K]⟩ .f32)
    (w : FVec Ideal ⟨2, ![K, N]⟩ .f32) (hb : (⟨2, ![1, K]⟩ : Shape).Broadcasts ⟨2, ![M, K]⟩)
    (h : FTy.bf16.bits < FTy.f32.bits) (z : Ideal .f32) (p : Fin M) (q : Fin N) :
    matmul (F := Ideal) (DotDims.plain M K N) none
        (truncf .bf16 (maximumf (addf a (broadcastTo (⟨2, ![M, K]⟩ : Shape) b hb)) (broadcast (⟨2, ![M, K]⟩ : Shape) z)) h)
        (truncf .bf16 w h) (constant (F := Ideal) ⟨2, ![M, N]⟩ .f32 0x00000000#32) (ix2 p q)
      = ∑ k : Fin K, max (a (ix2 p k) + b (ix2 0 k)) z * w (ix2 k q) := by
  rw [narrowed_product_apply]
  refine Finset.sum_congr rfl fun k _ => ?_
  rw [maximumf_apply, addf_apply, rowBroadcast_apply, broadcast_apply]

end Cert.Tile

end
-- ==== Proof.Glue.lean ====
/-
  The host operations around the two pallas_calls, as pure functions of the buffers they read.

  @main's host operations build the graph's edge lists with a self loop appended per node (`sources`, `targets`:
  a row of the edge array followed by 0, 1, …, 99999), each node's in-degree with its self loop (a scatter-add of ones
  at the targets), its inverse square root where the degree is positive, and per edge the product of that quantity at
  its two endpoints (`edgeWeights`). Each layer then gathers its features' rows at the sources, scales row e by the
  weight of edge e, and scatter-adds the rows at the targets (`aggregate128`, `aggregate64`); the last step adds the
  second bias to every row (`plusBias`). Nothing here opens a gather or a scatter: each stretch of @main is read, one
  operation at a time, as these functions of what the device's buffers held when the stretch began, and a buffer no
  operation of a stretch writes keeps its contents.
-/
import proofs.«126755_j32796370272476_1_alg».proof.Proof.Gen.KernelIdeal.Launch
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable {F : FTy → Type} [FloatOps F]

/-- Row 0 of the edge array, then one self loop per node. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge array, then one self loop per node. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Node indices as a gather's start indices: a negative index counted from the end, one index per row. -/
def wrapped (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- Each node's in-degree, self loop included: ones scatter-added at the targets. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- The degree's inverse square root where the degree is positive, zero elsewhere, from its three ingredients. -/
def choose (pos : (⟨S100000, .i1⟩ : BufTy).Contents (Elt F)) (r : (⟨S100000, .f32⟩ : BufTy).Contents (Elt F))
    (z : (⟨S_, .f32⟩ : BufTy).Contents (Elt F)) : (⟨S100000, .f32⟩ : BufTy).Contents (Elt F) :=
  select pos r (broadcastInDim S100000 ![] bcast_S_S100000 (id z))

/-- The degree's inverse square root where the degree is positive, zero elsewhere. -/
def invSqrtDegree (dst : (⟨S1700000, .i32⟩ : BufTy).Contents (Elt F)) : (⟨S100000, .f32⟩ : BufTy).Contents (Elt F) :=
  choose (cmpf (F := F) .ogt (degree dst) (broadcastInDim S100000 ![] bcast_S_S100000 (constant S_ .f32 0x00000000#32))) (Host.rsqrt (degree dst)) (constant S_ .f32 0x00000000#32)

/-- Per edge, the product of a per-node quantity at the edge's two endpoints. -/
def atEndpoints (d : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 d (wrapped src)) (Host.gather gather_S100000_S1700000x1_S1700000_n_0_n_n_0_1_1 d (wrapped dst))

/-- The symmetric normalisation's weight of each edge. -/
def edgeWeights (e : (⟨S2x1600000, .i32⟩ : BufTy).Contents (Elt F)) : (⟨S1700000, .f32⟩ : BufTy).Contents (Elt F) :=
  atEndpoints (invSqrtDegree (targets e)) (sources e) (targets e)

/-- One layer's message passing over 128 features: rows gathered at the sources, scaled by the edges' weights,
    scatter-added at the targets. -/
def aggregate128 (h : (⟨S100000x128, .f32⟩ : BufTy).Contents (Elt F)) (src dst : (⟨S1700000, .i32⟩ : BufTy).Contents (Elt F))
    (wt : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (wrapped src)) (broadcastInDim S1700000x128 ![0, 1] bcast_S1700000x1_S1700000x128_0_1 (broadcastInDim S1700000x1 ![0] bcast_S1700000_S1700000x1_0 wt)))

/-- The same over 64 features. -/
def aggregate64 (h : (⟨S100000x64, .f32⟩ : BufTy).Contents (Elt F)) (src dst : (⟨S1700000, .i32⟩ : BufTy).Contents (Elt F))
    (wt : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (wrapped src)) (broadcastInDim S1700000x64 ![0, 1] bcast_S1700000x1_S1700000x64_0_1 (broadcastInDim S1700000x1 ![0] bcast_S1700000_S1700000x1_0 wt)))

/-- The second bias added to every row. -/
def plusBias (a : (⟨S100000x64, .f32⟩ : BufTy).Contents (Elt F)) (b : (⟨S64, .f32⟩ : BufTy).Contents (Elt F)) :
    (⟨S100000x64, .f32⟩ : BufTy).Contents (Elt F) :=
  addf a (broadcastInDim S100000x64 ![0, 1] bcast_S1x64_S100000x64_0_1 (broadcastInDim S1x64 ![1] bcast_S64_S1x64_1 b))

/-- The first bias as the one-row matrix the second pallas_call takes. -/
def biasRow (b : (⟨S128, .f32⟩ : BufTy).Contents (Elt F)) : (⟨S1x128, .f32⟩ : BufTy).Contents (Elt F) :=
  shapeCast _ b shapeCasts_S128_S1x128

variable (V : Valuation τ sig (Elt F))

/-! ## The first stretch: the edge lists, the degrees, their inverse square roots -/

theorem first_sources : after hostOps0 V (Proc.devRef .tc main_v3) = sources (V (Proc.devRef .tc main_arg1)) := by
  after_results_simp <;> rfl
theorem first_targets : after hostOps0 V (Proc.devRef .tc main_v6) = targets (V (Proc.devRef .tc main_arg1)) := by
  after_results_simp <;> rfl
theorem first_positive : after hostOps0 V (Proc.devRef .tc main_v12)
    = cmpf (F := F) .ogt (degree (targets (V (Proc.devRef .tc main_arg1)))) (broadcastInDim S100000 ![] bcast_S_S100000 (constant S_ .f32 0x00000000#32)) := by
  after_results_simp <;> rfl
theorem first_rsqrt : after hostOps0 V (Proc.devRef .tc main_v13) = Host.rsqrt (degree (targets (V (Proc.devRef .tc main_arg1)))) := by
  after_results_simp <;> rfl
theorem first_zero : after hostOps0 V (Proc.devRef .tc main_cst_2) = constant S_ .f32 0x00000000#32 := by
  after_results_simp <;> rfl
theorem first_arg0 : after hostOps0 V (Proc.devRef .tc main_arg0) = V (Proc.devRef .tc main_arg0) := by after_results_simp <;> rfl
theorem first_arg2 : after hostOps0 V (Proc.devRef .tc main_arg2) = V (Proc.devRef .tc main_arg2) := by after_results_simp <;> rfl
theorem first_arg3 : after hostOps0 V (Proc.devRef .tc main_arg3) = V (Proc.devRef .tc main_arg3) := by after_results_simp <;> rfl
theorem first_arg4 : after hostOps0 V (Proc.devRef .tc main_arg4) = V (Proc.devRef .tc main_arg4) := by after_results_simp <;> rfl
theorem first_arg5 : after hostOps0 V (Proc.devRef .tc main_arg5) = V (Proc.devRef .tc main_arg5) := by after_results_simp <;> rfl

/-! ## The second stretch: the choice between the inverse square root and zero -/

theorem second_choice : after hostOps0_1 V (Proc.devRef .tc main_v14)
    = choose (V (Proc.devRef .tc main_v12)) (V (Proc.devRef .tc main_v13)) (V (Proc.devRef .tc main_cst_2)) := by
  after_results_simp <;> rfl
theorem second_sources : after hostOps0_1 V (Proc.devRef .tc main_v3) = V (Proc.devRef .tc main_v3) := by after_results_simp <;> rfl
theorem second_targets : after hostOps0_1 V (Proc.devRef .tc main_v6) = V (Proc.devRef .tc main_v6) := by after_results_simp <;> rfl
theorem second_arg0 : after hostOps0_1 V (Proc.devRef .tc main_arg0) = V (Proc.devRef .tc main_arg0) := by after_results_simp <;> rfl
theorem second_arg2 : after hostOps0_1 V (Proc.devRef .tc main_arg2) = V (Proc.devRef .tc main_arg2) := by after_results_simp <;> rfl
theorem second_arg3 : after hostOps0_1 V (Proc.devRef .tc main_arg3) = V (Proc.devRef .tc main_arg3) := by after_results_simp <;> rfl
theorem second_arg4 : after hostOps0_1 V (Proc.devRef .tc main_arg4) = V (Proc.devRef .tc main_arg4) := by after_results_simp <;> rfl
theorem second_arg5 : after hostOps0_1 V (Proc.devRef .tc main_arg5) = V (Proc.devRef .tc main_arg5) := by after_results_simp <;> rfl

/-! ## The third stretch: the edges' weights -/

theorem third_weights : after hostOps0_2 V (Proc.devRef .tc main_v29)
    = atEndpoints (V (Proc.devRef .tc main_v14)) (V (Proc.devRef .tc main_v3)) (V (Proc.devRef .tc main_v6)) := by
  after_results_simp <;> rfl
theorem third_sources : after hostOps0_2 V (Proc.devRef .tc main_v3) = V (Proc.devRef .tc main_v3) := by after_results_simp <;> rfl
theorem third_targets : after hostOps0_2 V (Proc.devRef .tc main_v6) = V (Proc.devRef .tc main_v6) := by after_results_simp <;> rfl
theorem third_arg0 : after hostOps0_2 V (Proc.devRef .tc main_arg0) = V (Proc.devRef .tc main_arg0) := by after_results_simp <;> rfl
theorem third_arg2 : after hostOps0_2 V (Proc.devRef .tc main_arg2) = V (Proc.devRef .tc main_arg2) := by after_results_simp <;> rfl
theorem third_arg3 : after hostOps0_2 V (Proc.devRef .tc main_arg3) = V (Proc.devRef .tc main_arg3) := by after_results_simp <;> rfl
theorem third_arg4 : after hostOps0_2 V (Proc.devRef .tc main_arg4) = V (Proc.devRef .tc main_arg4) := by after_results_simp <;> rfl
theorem third_arg5 : after hostOps0_2 V (Proc.devRef .tc main_arg5) = V (Proc.devRef .tc main_arg5) := by after_results_simp <;> rfl

/-! ## Between the two pallas_calls: the first layer's message passing and the bias row -/

theorem between_aggregate : after hostOps1 V (Proc.devRef .tc main_v43)
    = aggregate128 (V (Proc.devRef .tc main_v30)) (V (Proc.devRef .tc main_v3)) (V (Proc.devRef .tc main_v6)) (V (Proc.devRef .tc main_v29)) := by
  after_results_simp <;> rfl
theorem between_biasRow : after hostOps1 V (Proc.devRef .tc main_v44) = biasRow (V (Proc.devRef .tc main_arg3)) := by
  after_results_simp <;> rfl
theorem between_sources : after hostOps1 V (Proc.devRef .tc main_v3) = V (Proc.devRef .tc main_v3) := by after_results_simp <;> rfl
theorem between_targets : after hostOps1 V (Proc.devRef .tc main_v6) = V (Proc.devRef .tc main_v6) := by after_results_simp <;> rfl
theorem between_weights : after hostOps1 V (Proc.devRef .tc main_v29) = V (Proc.devRef .tc main_v29) := by after_results_simp <;> rfl
theorem between_arg4 : after hostOps1 V (Proc.devRef .tc main_arg4) = V (Proc.devRef .tc main_arg4) := by after_results_simp <;> rfl
theorem between_arg5 : after hostOps1 V (Proc.devRef .tc main_arg5) = V (Proc.devRef .tc main_arg5) := by after_results_simp <;> rfl

/-! ## After the second pallas_call: the second layer's message passing and the bias -/

theorem last_result : after hostOps2 V (Proc.devRef .tc main_v61)
    = plusBias (aggregate64 (V (Proc.devRef .tc main_v45)) (V (Proc.devRef .tc main_v3)) (V (Proc.devRef .tc main_v6)) (V (Proc.devRef .tc main_v29))) (V (Proc.devRef .tc main_arg5)) := by
  after_results_simp <;> rfl

end Cert.KernelIdeal.Glue

end
-- ==== Proof.FirstProduct.lean ====
/-
  What the first pallas_call leaves in its output array, over the extended reals.

  The call walks the 100000 rows of x in 20 tiles of 5000 rows; at tile t it multiplies rows 5000·t … 5000·t + 4999
  of x by the whole weight matrix and writes the 5000 × 128 result back as rows 5000·t … of the output. Entry (r, q) of
  the output is therefore the sum over k of x (r, k) · w (k, q) whichever tile r falls in: every tile writes its block
  of ONE whole-array function, the product x · w, and the 20 blocks cover every row (row r is in tile r / 5000).
  The statement is at any contents `V` of the device's buffers at the call's entry.
-/
import proofs.«126755_j32796370272476_1_alg».proof.Proof.Gen.KernelIdeal.Frame
import proofs.«126755_j32796370272476_1_alg».proof.Proof.TileProduct
import Idealize.ShloMosaic.Lib.Pipeline.Value
import Idealize.ShloMosaic.Lib.ValueIdx

set_option maxRecDepth 16384

noncomputable section

namespace Cert.KernelIdeal.FirstProduct

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product x · w: entry (r, q) is the sum over k of x (r, k) · w (k, q). -/
def rowsTimes (x : S100000x256.Idx → EReal) (w : S256x128.Idx → EReal) : S100000x128.Idx → EReal :=
  fun i => ∑ k : Fin 256, x (ix2 (⟨(i 0).val, (i 0).isLt⟩ : Fin 100000) k) * w (ix2 k (⟨(i 1).val, (i 1).isLt⟩ : Fin 128))

/-- The body's stored value at entry (p, q) of a tile: the tile's rows times the weights. -/
theorem stored_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  exact Cert.Tile.narrowed_product_apply 5000 256 128 x0 x1 _ p q

/-- The printed index maps over the grid: the rows' tile and the output's tile are tile t, the weights' block is the
    whole matrix. -/
theorem tiles : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is its block of the whole product of the arrays as the call finds them. -/
theorem flushed_eq (c : Dev nD) (t : Fin cfg0.N) :
    (dat0 V c).flushed 2 t = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  obtain ⟨e0, e1, e2, e3, e4, e5⟩ := tiles t
  funext j
  obtain ⟨p, q, rfl⟩ : ∃ (p : Fin 5000) (q : Fin 128), j = ix2 p q := ⟨j 0, j 1, eq_ix2 j⟩
  refine (stored_apply (iblk0 V c 0 t) (iblk0 V c 1 t) p q).trans ?_
  show _ = rowsTimes (V c main_arg0) (V c main_arg2) (((cfg0.win 2).blk t).view.emb (ix2 p q))
  unfold rowsTimes
  refine Finset.sum_congr rfl fun k _ => ?_
  have hx : iblk0 V c 0 t (ix2 p k) = V c main_arg0 (ix2 (⟨((((cfg0.win 2).blk t).view.emb (ix2 p q)) 0).val, ((((cfg0.win 2).blk t).view.emb (ix2 p q)) 0).isLt⟩ : Fin 100000) k) := by
    show V c main_arg0 (((cfg0.win 0).blk t).view.emb (ix2 p k)) = _
    refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have hw : iblk0 V c 1 t (ix2 k q) = V c main_arg2 (ix2 k (⟨((((cfg0.win 2).blk t).view.emb (ix2 p q)) 1).val, ((((cfg0.win 2).blk t).view.emb (ix2 p q)) 1).isLt⟩ : Fin 128)) := by
    show V c main_arg2 (((cfg0.win 1).blk t).view.emb (ix2 k q)) = _
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [hx, hw]

/-- An index of the output array is in tile t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in some tile's block: row r is in tile r / 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := tiles ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- After the call its output array holds the whole product of the arrays as the call found them. -/
theorem final (c : Dev nD) : (dat0 V c).arrAt 2 cfg0.N = rowsTimes (V c main_arg0) (V c main_arg2) :=
  (dat0 V c).arrAt_eq_of_cover 2 (rowsTimes (V c main_arg0) (V c main_arg2)) (fun t _ => flushed_eq V c t) (covered)

end Cert.KernelIdeal.FirstProduct

end
-- ==== Proof.SecondProduct.lean ====
/-
  What the second pallas_call leaves in its output array, over the extended reals.

  The call walks the 100000 rows of the aggregated features a in 20 tiles of 5000 rows; at tile t it adds the bias row
  b to rows 5000·t … 5000·t + 4999 of a, clamps the sums below at the zero word, multiplies by the whole weight matrix
  and writes the 5000 × 64 result back as rows 5000·t … of the output. Entry (r, q) of the output is therefore the sum
  over k of max (a (r, k) + b (0, k)) 0 · w (k, q) whichever tile r falls in: every tile writes its block of ONE
  whole-array function, and the 20 blocks cover every row (row r is in tile r / 5000). The statement is at any
  contents `V` of the device's buffers at the call's entry.
-/
import proofs.«126755_j32796370272476_1_alg».proof.Proof.Gen.KernelIdeal.Frame
import proofs.«126755_j32796370272476_1_alg».proof.Proof.TileProduct
import Idealize.ShloMosaic.Lib.Pipeline.Value
import Idealize.ShloMosaic.Lib.ValueIdx

set_option maxRecDepth 16384

noncomputable section

namespace Cert.KernelIdeal.SecondProduct

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product relu (a + b) · w: entry (r, q) is the sum over k of max (a (r, k) + b (0, k)) 0 · w (k, q), the
    clamp's zero kept as the float word it is printed as. -/
def clampedRowsTimes (a : S100000x128.Idx → EReal) (b : S1x128.Idx → EReal) (w : S128x64.Idx → EReal) : S100000x64.Idx → EReal :=
  fun i => ∑ k : Fin 128, max (a (ix2 (⟨(i 0).val, (i 0).isLt⟩ : Fin 100000) k) + b (ix2 (0 : Fin 1) k)) (Ideal.ofBits .f32 0x00000000#32)
    * w (ix2 k (⟨(i 1).val, (i 1).isLt⟩ : Fin 64))

/-- The body's stored value at entry (p, q) of a tile. -/
theorem stored_apply (x0 : Vec Ideal S5000x128 .f32) (x1 : Vec Ideal S1x128 .f32) (x2 : Vec Ideal S128x64 .f32) (p : Fin 5000) (q : Fin 64) :
    k1_pay1 (F := Ideal) x0 x1 x2 (ix2 p q)
      = ∑ k : Fin 128, max (x0 (ix2 p k) + x1 (ix2 (0 : Fin 1) k)) (Ideal.ofBits .f32 0x00000000#32) * x2 (ix2 k q) := by
  unfold k1_pay1
  simp only [shapeCast_self]
  exact Cert.Tile.bias_relu_product_apply 5000 128 64 x0 x1 x2 _ _ _ p q

/-- The printed index maps over the grid: the features' tile and the output's tile are tile t, the bias row's and the
    weights' blocks are the whole arrays. -/
theorem tiles : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What tile t writes back is its block of the whole clamped product of the arrays as the call finds them. -/
theorem flushed_eq (c : Dev nD) (t : Fin cfg1.N) :
    (dat1 V c).flushed 3 t = ((cfg1.win 3).blk t).view.read (Elt Ideal) (clampedRowsTimes (V c main_v43) (V c main_v44) (V c main_arg4)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x64) origin]
  obtain ⟨e0, e1, e2, e3, e4, e5, e6, e7⟩ := tiles t
  funext j
  obtain ⟨p, q, rfl⟩ : ∃ (p : Fin 5000) (q : Fin 64), j = ix2 p q := ⟨j 0, j 1, eq_ix2 j⟩
  refine (stored_apply (iblk1 V c 0 t) (iblk1 V c 1 t) (iblk1 V c 2 t) p q).trans ?_
  show _ = clampedRowsTimes (V c main_v43) (V c main_v44) (V c main_arg4) (((cfg1.win 3).blk t).view.emb (ix2 p q))
  unfold clampedRowsTimes
  refine Finset.sum_congr rfl fun k _ => ?_
  have ha : iblk1 V c 0 t (ix2 p k) = V c main_v43 (ix2 (⟨((((cfg1.win 3).blk t).view.emb (ix2 p q)) 0).val, ((((cfg1.win 3).blk t).view.emb (ix2 p q)) 0).isLt⟩ : Fin 100000) k) := by
    show V c main_v43 (((cfg1.win 0).blk t).view.emb (ix2 p k)) = _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have hb : iblk1 V c 1 t (ix2 (0 : Fin 1) k) = V c main_v44 (ix2 (0 : Fin 1) k) := by
    show V c main_v44 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have hw : iblk1 V c 2 t (ix2 k q) = V c main_arg4 (ix2 k (⟨((((cfg1.win 3).blk t).view.emb (ix2 p q)) 1).val, ((((cfg1.win 3).blk t).view.emb (ix2 p q)) 1).isLt⟩ : Fin 64)) := by
    show V c main_arg4 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * q.val = win1_3.index t (1 : Fin 2) * 64 + 1 * q.val; omega
  rw [ha, hb, hw]

/-- An index of the output array is in tile t's block iff each coordinate is in the block's range on its axis. -/
theorem mem_block (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- Every index of the output array is in some tile's block: row r is in tile r / 5000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨e0, e1, e2, e3, e4, e5, e6, e7⟩ := tiles ⟨(i 0).val / 5000, ht⟩
  refine ⟨⟨(i 0).val / 5000, ht⟩, flush1_3 _, ?_⟩
  rw [mem_block]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    omega

/-- After the call its output array holds the whole clamped product of the arrays as the call found them. -/
theorem final (c : Dev nD) :
    (dat1 V c).arrAt 3 cfg1.N = clampedRowsTimes (V c main_v43) (V c main_v44) (V c main_arg4) :=
  (dat1 V c).arrAt_eq_of_cover 3 (clampedRowsTimes (V c main_v43) (V c main_v44) (V c main_arg4)) (fun t _ => flushed_eq V c t) (covered)

end Cert.KernelIdeal.SecondProduct

end
-- ==== Proof.KernelResult.lean ====
/-
  What the kernel program leaves in its result, as one function of its six arguments, over the extended reals.

  The run ends with every buffer at the fold of @main's seven segments from the launch memory. Walking the fold back
  from the result buffer: the last stretch adds the second bias to the second layer's message passing of the second
  pallas_call's output; that output is the clamped product of the first layer's aggregated features with the bias row
  and the second weights; those features are the first layer's message passing of the first pallas_call's output, the
  product x · W1; and the edge lists and the edges' weights every layer uses come from the first three stretches and
  are written by nothing after them. A pallas_call writes only its output array, a stretch only its own results, so
  everything else is carried through unchanged.
-/
import proofs.«126755_j32796370272476_1_alg».proof.Proof.Gen.KernelIdeal.Frame
import proofs.«126755_j32796370272476_1_alg».proof.Proof.Glue
import proofs.«126755_j32796370272476_1_alg».proof.Proof.FirstProduct
import proofs.«126755_j32796370272476_1_alg».proof.Proof.SecondProduct

set_option maxRecDepth 16384

noncomputable section

namespace Cert.KernelIdeal.Result

open Cert.KernelIdeal Cert.KernelIdeal.Gen Cert.KernelIdeal.Glue
open Cert.KernelIdeal.FirstProduct (rowsTimes)
open Cert.KernelIdeal.SecondProduct (clampedRowsTimes)
open Idealize.ShloMosaic Idealize.ShloMosaic.TcCoe Idealize.SL.Sem Idealize.ShloMosaic.StableHlo

/-- The two-layer graph convolution as the kernel program computes it: both layers' dense products by the
    pallas_calls, the message passing and the last bias by the host operations. -/
def network (x : (⟨S100000x256, .f32⟩ : BufTy).Contents (Elt Ideal)) (e : (⟨S2x1600000, .i32⟩ : BufTy).Contents (Elt Ideal))
    (w1 : (⟨S256x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S100000x64, .f32⟩ : BufTy).Contents (Elt Ideal) :=
  plusBias (aggregate64 (clampedRowsTimes (aggregate128 (rowsTimes x w1) (sources e) (targets e) (edgeWeights e)) (biasRow b1) w2)
    (sources e) (targets e) (edgeWeights e)) b2

variable (m : (ℓ : Loc nD τ sig) → Buf (Elt Ideal) ℓ) (ρ : Dev nD → PrngReg) (c : Dev nD)

/-! ## At the first pallas_call's entry -/

theorem entry0_sources : W3 m ρ c (Proc.devRef .tc main_v3) = sources (m ((c : Thread nD τ).loc main_arg1)) := by
  show after hostOps0_2 (after hostOps0_1 (after hostOps0 (W0 m ρ c))) (Proc.devRef .tc main_v3) = _
  rw [third_sources, second_sources, first_sources]
theorem entry0_targets : W3 m ρ c (Proc.devRef .tc main_v6) = targets (m ((c : Thread nD τ).loc main_arg1)) := by
  show after hostOps0_2 (after hostOps0_1 (after hostOps0 (W0 m ρ c))) (Proc.devRef .tc main_v6) = _
  rw [third_targets, second_targets, first_targets]
theorem entry0_weights : W3 m ρ c (Proc.devRef .tc main_v29) = edgeWeights (m ((c : Thread nD τ).loc main_arg1)) := by
  show after hostOps0_2 (after hostOps0_1 (after hostOps0 (W0 m ρ c))) (Proc.devRef .tc main_v29) = _
  rw [third_weights, second_choice, second_sources, second_targets, first_positive, first_rsqrt, first_zero, first_sources, first_targets]; rfl
theorem entry0_arg0 : W3 m ρ c (Proc.devRef .tc main_arg0) = (m ((c : Thread nD τ).loc main_arg0)) := by
  show after hostOps0_2 (after hostOps0_1 (after hostOps0 (W0 m ρ c))) (Proc.devRef .tc main_arg0) = _
  rw [third_arg0, second_arg0, first_arg0]
theorem entry0_arg2 : W3 m ρ c (Proc.devRef .tc main_arg2) = (m ((c : Thread nD τ).loc main_arg2)) := by
  show after hostOps0_2 (after hostOps0_1 (after hostOps0 (W0 m ρ c))) (Proc.devRef .tc main_arg2) = _
  rw [third_arg2, second_arg2, first_arg2]
theorem entry0_arg3 : W3 m ρ c (Proc.devRef .tc main_arg3) = (m ((c : Thread nD τ).loc main_arg3)) := by
  show after hostOps0_2 (after hostOps0_1 (after hostOps0 (W0 m ρ c))) (Proc.devRef .tc main_arg3) = _
  rw [third_arg3, second_arg3, first_arg3]
theorem entry0_arg4 : W3 m ρ c (Proc.devRef .tc main_arg4) = (m ((c : Thread nD τ).loc main_arg4)) := by
  show after hostOps0_2 (after hostOps0_1 (after hostOps0 (W0 m ρ c))) (Proc.devRef .tc main_arg4) = _
  rw [third_arg4, second_arg4, first_arg4]
theorem entry0_arg5 : W3 m ρ c (Proc.devRef .tc main_arg5) = (m ((c : Thread nD τ).loc main_arg5)) := by
  show after hostOps0_2 (after hostOps0_1 (after hostOps0 (W0 m ρ c))) (Proc.devRef .tc main_arg5) = _
  rw [third_arg5, second_arg5, first_arg5]

/-! ## At the first pallas_call's exit -/

theorem exit0_product : W4 m ρ c (Proc.devRef .tc main_v30) = rowsTimes (m ((c : Thread nD τ).loc main_arg0)) (m ((c : Thread nD τ).loc main_arg2)) := by
  refine (W4_arr m ρ c 2).trans ((FirstProduct.final (V3 m ρ) c).trans ?_)
  show rowsTimes (W3 m ρ c (Proc.devRef .tc main_arg0)) (W3 m ρ c (Proc.devRef .tc main_arg2)) = _
  rw [entry0_arg0, entry0_arg2]
theorem exit0_sources : W4 m ρ c (Proc.devRef .tc main_v3) = sources (m ((c : Thread nD τ).loc main_arg1)) :=
  (W4_of_ne m ρ c main_v3 (by decide)).trans (entry0_sources m ρ c)
theorem exit0_targets : W4 m ρ c (Proc.devRef .tc main_v6) = targets (m ((c : Thread nD τ).loc main_arg1)) :=
  (W4_of_ne m ρ c main_v6 (by decide)).trans (entry0_targets m ρ c)
theorem exit0_weights : W4 m ρ c (Proc.devRef .tc main_v29) = edgeWeights (m ((c : Thread nD τ).loc main_arg1)) :=
  (W4_of_ne m ρ c main_v29 (by decide)).trans (entry0_weights m ρ c)
theorem exit0_arg3 : W4 m ρ c (Proc.devRef .tc main_arg3) = (m ((c : Thread nD τ).loc main_arg3)) :=
  (W4_of_ne m ρ c main_arg3 (by decide)).trans (entry0_arg3 m ρ c)
theorem exit0_arg4 : W4 m ρ c (Proc.devRef .tc main_arg4) = (m ((c : Thread nD τ).loc main_arg4)) :=
  (W4_of_ne m ρ c main_arg4 (by decide)).trans (entry0_arg4 m ρ c)
theorem exit0_arg5 : W4 m ρ c (Proc.devRef .tc main_arg5) = (m ((c : Thread nD τ).loc main_arg5)) :=
  (W4_of_ne m ρ c main_arg5 (by decide)).trans (entry0_arg5 m ρ c)

/-! ## At the second pallas_call's entry -/

theorem entry1_features : W5 m ρ c (Proc.devRef .tc main_v43)
    = aggregate128 (rowsTimes (m ((c : Thread nD τ).loc main_arg0)) (m ((c : Thread nD τ).loc main_arg2))) (sources (m ((c : Thread nD τ).loc main_arg1))) (targets (m ((c : Thread nD τ).loc main_arg1))) (edgeWeights (m ((c : Thread nD τ).loc main_arg1))) := by
  show after hostOps1 (W4 m ρ c) (Proc.devRef .tc main_v43) = _
  rw [between_aggregate, exit0_product, exit0_sources, exit0_targets, exit0_weights]
theorem entry1_biasRow : W5 m ρ c (Proc.devRef .tc main_v44) = biasRow (m ((c : Thread nD τ).loc main_arg3)) := by
  show after hostOps1 (W4 m ρ c) (Proc.devRef .tc main_v44) = _
  rw [between_biasRow, exit0_arg3]
theorem entry1_sources : W5 m ρ c (Proc.devRef .tc main_v3) = sources (m ((c : Thread nD τ).loc main_arg1)) := by
  show after hostOps1 (W4 m ρ c) (Proc.devRef .tc main_v3) = _
  rw [between_sources, exit0_sources]
theorem entry1_targets : W5 m ρ c (Proc.devRef .tc main_v6) = targets (m ((c : Thread nD τ).loc main_arg1)) := by
  show after hostOps1 (W4 m ρ c) (Proc.devRef .tc main_v6) = _
  rw [between_targets, exit0_targets]
theorem entry1_weights : W5 m ρ c (Proc.devRef .tc main_v29) = edgeWeights (m ((c : Thread nD τ).loc main_arg1)) := by
  show after hostOps1 (W4 m ρ c) (Proc.devRef .tc main_v29) = _
  rw [between_weights, exit0_weights]
theorem entry1_arg4 : W5 m ρ c (Proc.devRef .tc main_arg4) = (m ((c : Thread nD τ).loc main_arg4)) := by
  show after hostOps1 (W4 m ρ c) (Proc.devRef .tc main_arg4) = _
  rw [between_arg4, exit0_arg4]
theorem entry1_arg5 : W5 m ρ c (Proc.devRef .tc main_arg5) = (m ((c : Thread nD τ).loc main_arg5)) := by
  show after hostOps1 (W4 m ρ c) (Proc.devRef .tc main_arg5) = _
  rw [between_arg5, exit0_arg5]

/-! ## At the second pallas_call's exit -/

theorem exit1_product : W6 m ρ c (Proc.devRef .tc main_v45)
    = clampedRowsTimes (aggregate128 (rowsTimes (m ((c : Thread nD τ).loc main_arg0)) (m ((c : Thread nD τ).loc main_arg2))) (sources (m ((c : Thread nD τ).loc main_arg1))) (targets (m ((c : Thread nD τ).loc main_arg1))) (edgeWeights (m ((c : Thread nD τ).loc main_arg1)))) (biasRow (m ((c : Thread nD τ).loc main_arg3))) (m ((c : Thread nD τ).loc main_arg4)) := by
  refine (W6_arr m ρ c 3).trans ((SecondProduct.final (V5 m ρ) c).trans ?_)
  show clampedRowsTimes (W5 m ρ c (Proc.devRef .tc main_v43)) (W5 m ρ c (Proc.devRef .tc main_v44)) (W5 m ρ c (Proc.devRef .tc main_arg4)) = _
  rw [entry1_features, entry1_biasRow, entry1_arg4]
theorem exit1_sources : W6 m ρ c (Proc.devRef .tc main_v3) = sources (m ((c : Thread nD τ).loc main_arg1)) :=
  (W6_of_ne m ρ c main_v3 (by decide)).trans (entry1_sources m ρ c)
theorem exit1_targets : W6 m ρ c (Proc.devRef .tc main_v6) = targets (m ((c : Thread nD τ).loc main_arg1)) :=
  (W6_of_ne m ρ c main_v6 (by decide)).trans (entry1_targets m ρ c)
theorem exit1_weights : W6 m ρ c (Proc.devRef .tc main_v29) = edgeWeights (m ((c : Thread nD τ).loc main_arg1)) :=
  (W6_of_ne m ρ c main_v29 (by decide)).trans (entry1_weights m ρ c)
theorem exit1_arg5 : W6 m ρ c (Proc.devRef .tc main_arg5) = (m ((c : Thread nD τ).loc main_arg5)) :=
  (W6_of_ne m ρ c main_arg5 (by decide)).trans (entry1_arg5 m ρ c)

/-! ## The result -/

/-- The result buffer at the last boundary is the network of the six arguments as launched. -/
theorem result_eq : W7 m ρ c (Proc.devRef .tc main_v61)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show after hostOps2 (W6 m ρ c) (Proc.devRef .tc main_v61) = _
  rw [last_result, exit1_product, exit1_sources, exit1_targets, exit1_weights, exit1_arg5]
  rfl

end Cert.KernelIdeal.Result

end
-- ==== Proof.RefBridge.lean ====
/-
  The reference's result is the same function of the six arguments, over the extended reals.

  The reference computes the two-layer graph convolution with host operations only. Its edge lists, its edges' weights,
  its two message-passing steps and its last bias are, operation for operation, the ones the kernel program's host
  stretches apply, so they meet the kernel side's functions by unfolding. What differs is where the dense products are
  computed: the reference's first dot_general is, entry by entry, the sum over k of x (r, k) · W1 (k, q), the first
  pallas_call's whole product; its second dot_general takes relu (features + b1) on the left, the bias broadcast down
  the rows and the clamp a maximum against the zero word, and is entry by entry the sum over k of
  max (features (r, k) + b1 (k)) 0 · W2 (k, q), the second pallas_call's whole clamped product, the kernel's bias row
  [1, 128] reading b1 at its column.
-/
import proofs.«126755_j32796370272476_1_alg».proof.Proof.RefRead
import proofs.«126755_j32796370272476_1_alg».proof.Proof.KernelResult
import Idealize.ShloMosaic.Lib.ValueLayout

set_option maxRecDepth 16384

noncomputable section

namespace Cert.ReferenceIdeal.Bridge

open Cert.ReferenceIdeal Cert.ReferenceIdeal.ReadP
open Idealize.ShloMosaic Idealize.ShloMosaic.ValueIdx
open Cert.KernelIdeal.Glue (sources targets edgeWeights aggregate128 aggregate64 plusBias biasRow)
open Cert.KernelIdeal.FirstProduct (rowsTimes)
open Cert.KernelIdeal.SecondProduct (clampedRowsTimes)

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The reference's source list is the kernel program's. -/
theorem sources_eq : val_main_v3 (F := Ideal) x1 = sources x1 := rfl

/-- The reference's target list is the kernel program's. -/
theorem targets_eq : val_main_v6 (F := Ideal) x1 = targets x1 := rfl

/-- The reference's edge weights are the kernel program's. -/
theorem weights_eq : val_main_v29 (F := Ideal) x1 = edgeWeights x1 := rfl

/-- The reference's first dot_general is the first pallas_call's whole product. -/
theorem firstProduct_eq : val_main_v30 (F := Ideal) x0 x2 = rowsTimes x0 x2 := by
  funext i
  rw [val_main_v30_apply]
  unfold Cert.KernelIdeal.FirstProduct.rowsTimes
  refine Finset.sum_congr rfl fun k _ => ?_
  have el : lidx_main_v30 i k = ix2 (⟨(i 0).val, (i 0).isLt⟩ : Fin 100000) k :=
    funext fun a => Fin.ext (by match a with | ⟨0, _⟩ => rfl | ⟨1, _⟩ => rfl)
  have er : ridx_main_v30 i k = ix2 k (⟨(i 1).val, (i 1).isLt⟩ : Fin 128) :=
    funext fun a => Fin.ext (by match a with | ⟨0, _⟩ => rfl | ⟨1, _⟩ => rfl)
  rw [el, er]

/-- The reference's first layer before its bias is the kernel program's first message passing. -/
theorem features_eq : val_main_v43 (F := Ideal) x0 x1 x2
    = aggregate128 (rowsTimes x0 x2) (sources x1) (targets x1) (edgeWeights x1) := by
  have h : val_main_v43 (F := Ideal) x0 x1 x2
      = aggregate128 (val_main_v30 (F := Ideal) x0 x2) (val_main_v3 (F := Ideal) x1) (val_main_v6 (F := Ideal) x1) (val_main_v29 (F := Ideal) x1) := rfl
  rw [h, firstProduct_eq, sources_eq, targets_eq, weights_eq]

/-- The reference's second dot_general, of relu (features + b1) with W2, is the second pallas_call's whole clamped
    product at the bias row. -/
theorem secondProduct_eq : val_main_v48 (F := Ideal) x0 x1 x2 x3 x4
    = clampedRowsTimes (val_main_v43 (F := Ideal) x0 x1 x2) (biasRow x3) x4 := by
  funext i
  rw [val_main_v48_apply]
  unfold Cert.KernelIdeal.SecondProduct.clampedRowsTimes
  refine Finset.sum_congr rfl fun k _ => ?_
  have el : lidx_main_v48 i k = ix2 (⟨(i 0).val, (i 0).isLt⟩ : Fin 100000) k :=
    funext fun a => Fin.ext (by match a with | ⟨0, _⟩ => rfl | ⟨1, _⟩ => rfl)
  have er : ridx_main_v48 i k = ix2 k (⟨(i 1).val, (i 1).isLt⟩ : Fin 64) :=
    funext fun a => Fin.ext (by match a with | ⟨0, _⟩ => rfl | ⟨1, _⟩ => rfl)
  have hb : biasRow x3 (ix2 (0 : Fin 1) k) = x3 (ix1 k) := shapeCast_a_1a_apply x3 _ 0 k
  have hi : idx_main_v44 (idx_main_v45 (ix2 (⟨(i 0).val, (i 0).isLt⟩ : Fin 100000) k)) = ix1 k :=
    funext fun a => Fin.ext (by match a with | ⟨0, _⟩ => rfl)
  rw [el, er, val_main_v47_apply, val_main_v46_apply, val_main_v45_apply, val_main_v44_apply, val_main_call1_v0_apply,
    val_main_call1_cst_apply, hb, hi]
  rfl

/-- The reference's result is the kernel program's network of the same six arguments. -/
theorem result_eq : val_main_v64 (F := Ideal) x0 x1 x2 x3 x4 x5 = Cert.KernelIdeal.Result.network x0 x1 x2 x3 x4 x5 := by
  have h : val_main_v64 (F := Ideal) x0 x1 x2 x3 x4 x5
      = plusBias (aggregate64 (val_main_v48 (F := Ideal) x0 x1 x2 x3 x4) (val_main_v3 (F := Ideal) x1) (val_main_v6 (F := Ideal) x1) (val_main_v29 (F := Ideal) x1)) x5 := rfl
  rw [h, secondProduct_eq, features_eq, sources_eq, targets_eq, weights_eq]
  rfl

end Cert.ReferenceIdeal.Bridge

end
-- ==== Proof.lean ====
/-
  Two layers of graph convolution: dense products in two pallas_calls against a reference of host operations only.

  Both programs compute, from node features x, an edge list, and two weight matrices with their biases,
      out = A · (relu (A · (x · W1) + b1) · W2) + b2,
  where A · h gathers the rows of h at the edges' sources (a self loop appended per node), scales row e by the
  symmetric normalisation's weight of edge e, and scatter-adds the rows at the edges' targets. The kernel program
  computes x · W1 in one pallas_call over 20 tiles of 5000 rows and relu (· + b1) · W2 in another, its operands narrowed
  to bf16, and leaves the message passing and the last bias to host operations; the reference does everything on the
  host. Over the extended reals a change of float format is the identity, a tile of a product is the rows of the whole
  product, and a product into a zero accumulator is the host's dot_general: both programs end at ONE function
  `network` of the six arguments (Proof/KernelResult.lean for the kernel program, Proof/RefBridge.lean for the
  reference). The message passing is never opened: both programs apply the same gathers and scatter-adds to equal
  operands, whatever the edge indices are, so the precondition's finiteness is not used.

  The frames of the two kernel programs are the generated ones; the reference's is its run with the result dropped;
  the idealization rewrote no operation, so `preserves` has nothing to state.
-/
import proofs.«126755_j32796370272476_1_alg».proof.Defs
import proofs.«126755_j32796370272476_1_alg».proof.Proof.Gen.Kernel
import proofs.«126755_j32796370272476_1_alg».proof.Proof.Gen.Kernel.Skeleton
import proofs.«126755_j32796370272476_1_alg».proof.Proof.Gen.Kernel.Launch
import proofs.«126755_j32796370272476_1_alg».proof.Proof.Gen.Kernel.Points
import proofs.«126755_j32796370272476_1_alg».proof.Proof.Gen.Kernel.Frame
import proofs.«126755_j32796370272476_1_alg».proof.Proof.Gen.KernelIdeal
import proofs.«126755_j32796370272476_1_alg».proof.Proof.Gen.KernelIdeal.Skeleton
import proofs.«126755_j32796370272476_1_alg».proof.Proof.Gen.KernelIdeal.Launch
import proofs.«126755_j32796370272476_1_alg».proof.Proof.Gen.KernelIdeal.Points
import proofs.«126755_j32796370272476_1_alg».proof.Proof.Gen.KernelIdeal.Frame
import proofs.«126755_j32796370272476_1_alg».proof.Proof.Gen.ReferenceIdeal
import proofs.«126755_j32796370272476_1_alg».proof.Proof.Gen.Pre_finite_inputs
import proofs.«126755_j32796370272476_1_alg».proof.Proof.RefRun
import proofs.«126755_j32796370272476_1_alg».proof.Proof.RefRead
import proofs.«126755_j32796370272476_1_alg».proof.Proof.LibPlainDot
import proofs.«126755_j32796370272476_1_alg».proof.Proof.TileProduct
import proofs.«126755_j32796370272476_1_alg».proof.Proof.KernelRun
import proofs.«126755_j32796370272476_1_alg».proof.Proof.Glue
import proofs.«126755_j32796370272476_1_alg».proof.Proof.FirstProduct
import proofs.«126755_j32796370272476_1_alg».proof.Proof.SecondProduct
import proofs.«126755_j32796370272476_1_alg».proof.Proof.KernelResult
import proofs.«126755_j32796370272476_1_alg».proof.Proof.RefBridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame of its seven segments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the six arguments both programs end, the kernel program's result and the reference's at
    the same `network` of the arguments. -/
theorem algebraic : Cert.algebraic_KernelIdeal_ReferenceIdeal := by
  intro m ρ m' ρ' _ hagree
  refine ⟨fun c => Cert.KernelIdeal.Result.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result_eq m ρ c), (h c).2⟩)
      (Cert.KernelIdeal.GenP.run_named (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v64_eq, Cert.ReferenceIdeal.Bridge.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
